-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2000 : Shape := ⟨2, ![8, 2000]⟩
abbrev S500000 : Shape := ⟨1, ![500000]⟩
abbrev S6000x128 : Shape := ⟨2, ![6000, 128]⟩
abbrev S128x128 : Shape := ⟨2, ![128, 128]⟩
abbrev S128 : Shape := ⟨1, ![128]⟩
abbrev S_ : Shape := ⟨0, ![]⟩

class Facts : Prop where
  bcast_S_S500000 : S_.BroadcastsInDim S500000 (![] : Fin 0 → Fin S500000.rank)
  reducesTo_S500000_S_d0 : S500000.ReducesTo [0] S_
  h_S_ : 0 < S_.numel
  bcast_S_S6000x128 : S_.BroadcastsInDim S6000x128 (![] : Fin 0 → Fin S6000x128.rank)
  reducesTo_S6000x128_S_d0_1 : S6000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : IVec S8x2000 32) (main_arg1 : IVec S500000 32) (main_arg2 : IVec S500000 32) (main_arg3 : IVec S500000 32) (main_arg4 : FVec F S500000 .f32) (main_arg5 : FVec F S6000x128 .f32) (main_arg6 : FVec F S128x128 .f32) (main_arg7 : FVec F S128 .f32) : IVec S_ 1 :=
  let main_v0 : FVec F S500000 .f32 := Host.absf main_arg4
  let main_cst : FVec F S_ .f32 := constant S_ .f32 0x7F800000#32
  let main_v1 : FVec F S500000 .f32 := broadcastInDim S500000 ![] bcast_S_S500000 main_cst
  let main_v2 : IVec S500000 1 := cmpf .olt main_v0 main_v1
  let main_c : IVec S_ 1 := constantI S_ 1 1#1
  let main_v3 : IVec S_ 1 := (fun x v => Host.reduce IntOp.andi x v reducesTo_S500000_S_d0 h_S_) main_v2 main_c
  let main_v4 : FVec F S6000x128 .f32 := Host.absf main_arg5
  let main_cst_0 : FVec F S_ .f32 := constant S_ .f32 0x7F800000#32
  let main_v5 : FVec F S6000x128 .f32 := broadcastInDim S6000x128 ![] bcast_S_S6000x128 main_cst_0
  let main_v6 : IVec S6000x128 1 := cmpf .olt main_v4 main_v5
  let main_c_1 : IVec S_ 1 := constantI S_ 1 1#1
  let main_v7 : IVec S_ 1 := (fun x v => Host.reduce IntOp.andi x v reducesTo_S6000x128_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S8x2000 : Shape := ⟨2, ![8, 2000]⟩
abbrev S500000 : Shape := ⟨1, ![500000]⟩
abbrev S6000x128 : Shape := ⟨2, ![6000, 128]⟩
abbrev S128x128 : Shape := ⟨2, ![128, 128]⟩
abbrev S128 : Shape := ⟨1, ![128]⟩
abbrev S_ : Shape := ⟨0, ![]⟩
abbrev S500000x1 : Shape := ⟨2, ![500000, 1]⟩
abbrev S500000x128 : Shape := ⟨2, ![500000, 128]⟩
abbrev S10000x128 : Shape := ⟨2, ![10000, 128]⟩
abbrev S10000x1 : Shape := ⟨2, ![10000, 1]⟩
abbrev S1x128 : Shape := ⟨2, ![1, 128]⟩
abbrev S16000x128 : Shape := ⟨2, ![16000, 128]⟩
abbrev S2000x128 : Shape := ⟨2, ![2000, 128]⟩
abbrev S8x2000x128 : Shape := ⟨3, ![8, 2000, 128]⟩

abbrev nBuf : Space → Nat
  | .hbm => 30
  | .vmem => 14
  | .smem => 0
  | _ => 0

abbrev bufTy : (tb : Table) → Fin (tcTables nBuf tb) → BufTy
  | .hbm, ⟨0, _⟩ => ⟨S8x2000, .i32⟩
  | .hbm, ⟨1, _⟩ => ⟨S500000, .i32⟩
  | .hbm, ⟨2, _⟩ => ⟨S500000, .i32⟩
  | .hbm, ⟨3, _⟩ => ⟨S500000, .i32⟩
  | .hbm, ⟨4, _⟩ => ⟨S500000, .f32⟩
  | .hbm, ⟨5, _⟩ => ⟨S6000x128, .f32⟩
  | .hbm, ⟨6, _⟩ => ⟨S128x128, .f32⟩
  | .hbm, ⟨7, _⟩ => ⟨S128, .f32⟩
  | .hbm, ⟨8, _⟩ => ⟨S_, .i32⟩
  | .hbm, ⟨9, _⟩ => ⟨S500000, .i32⟩
  | .hbm, ⟨10, _⟩ => ⟨S500000, .i1⟩
  | .hbm, ⟨11, _⟩ => ⟨S_, .i32⟩
  | .hbm, ⟨12, _⟩ => ⟨S500000, .i32⟩
  | .hbm, ⟨13, _⟩ => ⟨S500000, .i32⟩
  | .hbm, ⟨14, _⟩ => ⟨S500000, .i32⟩
  | .hbm, ⟨15, _⟩ => ⟨S500000x1, .i32⟩
  | .hbm, ⟨16, _⟩ => ⟨S500000x128, .f32⟩
  | .hbm, ⟨17, _⟩ => ⟨S128x128, .f32⟩
  | .hbm, ⟨18, _⟩ => ⟨S500000x1, .f32⟩
  | .hbm, ⟨19, _⟩ => ⟨S500000x128, .f32⟩
  | .hbm, ⟨20, _⟩ => ⟨S_, .f32⟩
  | .hbm, ⟨21, _⟩ => ⟨S16000x128, .f32⟩
  | .hbm, ⟨22, _⟩ => ⟨S500000x1, .i32⟩
  | .hbm, ⟨23, _⟩ => ⟨S16000x128, .f32⟩
  | .hbm, ⟨24, _⟩ => ⟨S_, .f32⟩
  | .hbm, ⟨25, _⟩ => ⟨S16000x128, .f32⟩
  | .hbm, ⟨26, _⟩ => ⟨S500000x1, .i32⟩
  | .hbm, ⟨27, _⟩ => ⟨S16000x128, .f32⟩
  | .hbm, ⟨28, _⟩ => ⟨S16000x128, .f32⟩
  | .hbm, ⟨29, _⟩ => ⟨S8x2000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128, .f32⟩
  | .local _ .vmem, ⟨4, _⟩ => ⟨S10000x1, .f32⟩
  | .local _ .vmem, ⟨5, _⟩ => ⟨S10000x1, .f32⟩
  | .local _ .vmem, ⟨6, _⟩ => ⟨S10000x128, .f32⟩
  | .local _ .vmem, ⟨7, _⟩ => ⟨S10000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | _, _ => ⟨S8x2000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  transposes_S128x128_S128x128_1_0 : S128x128.Transposes [1, 0] S128x128
  shapeCasts_S500000_S500000x1 : S500000.ShapeCasts S500000x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S16000x128 : S_.BroadcastsInDim S16000x128 (![] : Fin 0 → Fin S16000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  shapeCasts_S16000x128_S8x2000x128 : S16000x128.ShapeCasts S8x2000x128
  gather_S6000x128_S500000x1_S500000x128_1_0_n_n_0_1_1128_wf : GatherDims.WF S6000x128 S500000x1 S500000x128 [1] [0] [] [0] [] 1 ![1, 128]
  dot_S10000x128_S128x128_S10000x128_1_0_0_1_n_n_wf : DotDims.WF S10000x128 S128x128 S10000x128 [1] [0] [0] [1] [] []
  scatter_S16000x128_S500000x1_S500000x128_1_0_0_1_wf : ScatterDims.WF S16000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S500000x128.size a
  hwx0_0 : ∀ i : grid0.Coords, EltTy.bits .f32 = 32 ∨ (Rect.block (s := S500000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x1.size a ≤ S500000x1.size a
  hwx0_3 : ∀ i : grid0.Coords, EltTy.bits .f32 = 32 ∨ (Rect.block (s := S500000x1) S10000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S500000x128.size a
  hwx0_4 : ∀ i : grid0.Coords, EltTy.bits .f32 = 32 ∨ (Rect.block (s := S500000x128) S10000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S16000x128.size a
  hwx1_0 : ∀ i : grid1.Coords, EltTy.bits .f32 = 32 ∨ (Rect.block (s := S16000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S16000x128.size a
  hwx1_1 : ∀ i : grid1.Coords, EltTy.bits .f32 = 32 ∨ (Rect.block (s := S16000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S16000x128.size a
  hwx1_2 : ∀ i : grid1.Coords, EltTy.bits .f32 = 32 ∨ (Rect.block (s := S16000x128) S2000x128.size (cc1_transform_2 i) (hinb1_2 i)).WholeWords (EltTy.packing .f32)

variable [Facts₀]

def gather_S6000x128_S500000x1_S500000x128_1_0_n_n_0_1_1128 : GatherDims S6000x128 S500000x1 S500000x128 where
  offsetDims := [1]
  collapsedSliceDims := [0]
  operandBatchingDims := []
  startIndicesBatchingDims := []
  startIndexMap := [0]
  indexVectorDim := 1
  sliceSizes := ![1, 128]
  wf := gather_S6000x128_S500000x1_S500000x128_1_0_n_n_0_1_1128_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S16000x128_S500000x1_S500000x128_1_0_0_1 : ScatterDims S16000x128 S500000x1 S500000x128 where
  updateWindowDims := [1]
  insertedWindowDims := [0]
  scatterDimsToOperandDims := [0]
  indexVectorDim := 1
  wf := scatter_S16000x128_S500000x1_S500000x128_1_0_0_1_wf

abbrev win0_0 : Pipeline.Window sig grid0 :=
  Pipeline.Window.ofSpec (Memref.whole main_v6) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S10000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v12) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x2000 : Shape := ⟨2, ![8, 2000]⟩
abbrev S500000 : Shape := ⟨1, ![500000]⟩
abbrev S6000x128 : Shape := ⟨2, ![6000, 128]⟩
abbrev S128x128 : Shape := ⟨2, ![128, 128]⟩
abbrev S128 : Shape := ⟨1, ![128]⟩
abbrev S_ : Shape := ⟨0, ![]⟩
abbrev S500000x1 : Shape := ⟨2, ![500000, 1]⟩
abbrev S500000x128 : Shape := ⟨2, ![500000, 128]⟩
abbrev S1x128 : Shape := ⟨2, ![1, 128]⟩
abbrev S16000x128 : Shape := ⟨2, ![16000, 128]⟩
abbrev S8x2000x128 : Shape := ⟨3, ![8, 2000, 128]⟩

abbrev nBuf : Space → Nat
  | .hbm => 38
  | .vmem => 0
  | .smem => 0
  | _ => 0

abbrev bufTy : (tb : Table) → Fin (tcTables nBuf tb) → BufTy
  | .hbm, ⟨0, _⟩ => ⟨S8x2000, .i32⟩
  | .hbm, ⟨1, _⟩ => ⟨S500000, .i32⟩
  | .hbm, ⟨2, _⟩ => ⟨S500000, .i32⟩
  | .hbm, ⟨3, _⟩ => ⟨S500000, .i32⟩
  | .hbm, ⟨4, _⟩ => ⟨S500000, .f32⟩
  | .hbm, ⟨5, _⟩ => ⟨S6000x128, .f32⟩
  | .hbm, ⟨6, _⟩ => ⟨S128x128, .f32⟩
  | .hbm, ⟨7, _⟩ => ⟨S128, .f32⟩
  | .hbm, ⟨8, _⟩ => ⟨S_, .i32⟩
  | .hbm, ⟨9, _⟩ => ⟨S500000, .i32⟩
  | .hbm, ⟨10, _⟩ => ⟨S500000, .i1⟩
  | .hbm, ⟨11, _⟩ => ⟨S_, .i32⟩
  | .hbm, ⟨12, _⟩ => ⟨S500000, .i32⟩
  | .hbm, ⟨13, _⟩ => ⟨S500000, .i32⟩
  | .hbm, ⟨14, _⟩ => ⟨S500000, .i32⟩
  | .hbm, ⟨15, _⟩ => ⟨S500000x1, .i32⟩
  | .hbm, ⟨16, _⟩ => ⟨S500000x128, .f32⟩
  | .hbm, ⟨17, _⟩ => ⟨S128x128, .f32⟩
  | .hbm, ⟨18, _⟩ => ⟨S500000x128, .f32⟩
  | .hbm, ⟨19, _⟩ => ⟨S1x128, .f32⟩
  | .hbm, ⟨20, _⟩ => ⟨S500000x128, .f32⟩
  | .hbm, ⟨21, _⟩ => ⟨S500000x128, .f32⟩
  | .hbm, ⟨22, _⟩ => ⟨S500000x1, .f32⟩
  | .hbm, ⟨23, _⟩ => ⟨S500000x128, .f32⟩
  | .hbm, ⟨24, _⟩ => ⟨S500000x128, .f32⟩
  | .hbm, ⟨25, _⟩ => ⟨S_, .f32⟩
  | .hbm, ⟨26, _⟩ => ⟨S16000x128, .f32⟩
  | .hbm, ⟨27, _⟩ => ⟨S500000x1, .i32⟩
  | .hbm, ⟨28, _⟩ => ⟨S16000x128, .f32⟩
  | .hbm, ⟨29, _⟩ => ⟨S_, .f32⟩
  | .hbm, ⟨30, _⟩ => ⟨S16000x128, .f32⟩
  | .hbm, ⟨31, _⟩ => ⟨S500000x1, .i32⟩
  | .hbm, ⟨32, _⟩ => ⟨S16000x128, .f32⟩
  | .hbm, ⟨33, _⟩ => ⟨S16000x128, .f32⟩
  | .hbm, ⟨34, _⟩ => ⟨S_, .f32⟩
  | .hbm, ⟨35, _⟩ => ⟨S16000x128, .f32⟩
  | .hbm, ⟨36, _⟩ => ⟨S16000x128, .f32⟩
  | .hbm, ⟨37, _⟩ => ⟨S8x2000x128, .f32⟩
  | _, _ => ⟨S8x2000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_cst : Ref sig .tc := ⟨.hbm, 34, rfl⟩
abbrev main_call0_v0 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  transposes_S128x128_S128x128_1_0 : S128x128.Transposes [1, 0] S128x128
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S500000x1_S500000x128_0_1 : S500000x1.BroadcastsInDim S500000x128 (![0, 1] : Fin 2 → Fin S500000x128.rank)
  bcast_S_S16000x128 : S_.BroadcastsInDim S16000x128 (![] : Fin 0 → Fin S16000x128.rank)
  shapeCasts_S16000x128_S8x2000x128 : S16000x128.ShapeCasts S8x2000x128
  gather_S6000x128_S500000x1_S500000x128_1_0_n_n_0_1_1128_wf : GatherDims.WF S6000x128 S500000x1 S500000x128 [1] [0] [] [0] [] 1 ![1, 128]
  dot_S500000x128_S128x128_S500000x128_1_0_0_1_n_n_wf : DotDims.WF S500000x128 S128x128 S500000x128 [1] [0] [0] [1] [] []
  scatter_S16000x128_S500000x1_S500000x128_1_0_0_1_wf : ScatterDims.WF S16000x128 S500000x1 S500000x128 [1] [0] [0] 1

variable [Facts₀]

def gather_S6000x128_S500000x1_S500000x128_1_0_n_n_0_1_1128 : GatherDims S6000x128 S500000x1 S500000x128 where
  offsetDims := [1]
  collapsedSliceDims := [0]
  operandBatchingDims := []
  startIndicesBatchingDims := []
  startIndexMap := [0]
  indexVectorDim := 1
  sliceSizes := ![1, 128]
  wf := gather_S6000x128_S500000x1_S500000x128_1_0_n_n_0_1_1128_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def scatter_S16000x128_S500000x1_S500000x128_1_0_0_1 : ScatterDims S16000x128 S500000x1 S500000x128 where
  updateWindowDims := [1]
  insertedWindowDims := [0]
  scatterDimsToOperandDims := [0]
  indexVectorDim := 1
  wf := scatter_S16000x128_S500000x1_S500000x128_1_0_0_1_wf

class Facts : Prop extends Facts₀ where

variable [Facts]
-- ==== Proof.LinearScale.lean ====
/-
  The first launch of the program: for 500000 rows x of width 128, a 128 × 128 matrix A, a bias row b and one weight
  w per row, the array (x · A + b) · w, computed in fifty blocks of 10000 rows. Row r of a product of matrices depends
  on row r of the left factor only, so block t of the result is the same expression of block t of the rows, block t
  of the weights and the whole of A and b; the fifty blocks tile the array. At the ideal values the matrix unit's
  product accumulated into zero is the plain sum over the contracted coordinate, and its operands' change of format
  is the identity.
-/
import proofs.«128443_j36524401885446_1_alg».proof.Proof.Gen.KernelIdeal.Frame
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

set_option maxRecDepth 16384

noncomputable section

open scoped BigOperators

namespace Cert.KernelIdeal.LinearScale

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

/-- The launch's four operands as it finds them, at their literal types: the rows, the matrix, the bias, the weights. -/
abbrev rowsArr (c : Dev nD) : FVec Ideal S500000x128 .f32 := V c main_v6
abbrev matArr (c : Dev nD) : FVec Ideal S128x128 .f32 := V c main_v7
abbrev biasArr (c : Dev nD) : FVec Ideal S128 .f32 := V c main_arg7
abbrev weightArr (c : Dev nD) : FVec Ideal S500000x1 .f32 := V c main_v8

theorem origin2 : (![0, 0] : Fin 2 → Nat) = fun _ => 0 := funext fun a => by fin_cases a <;> rfl
theorem origin1 : (![0] : Fin 1 → Nat) = fun _ => 0 := funext fun a => by fin_cases a; rfl

/-- Entry (r, j) of (x · A + b) · w. -/
def entry (X : FVec Ideal S500000x128 .f32) (A : FVec Ideal S128x128 .f32) (B : FVec Ideal S128 .f32)
    (W : FVec Ideal S500000x1 .f32) (r : Fin 500000) (j : Fin 128) : Ideal .f32 :=
  (Host.dotGeneral (F := Ideal) (DotDims.plain 500000 128 128) none X A (ix2 r j) + B (ix1 j)) * W (ix2 r (0 : Fin 1))

/-- The whole array (x · A + b) · w. -/
def scaledRows (X : FVec Ideal S500000x128 .f32) (A : FVec Ideal S128x128 .f32) (B : FVec Ideal S128 .f32)
    (W : FVec Ideal S500000x1 .f32) : FVec Ideal S500000x128 .f32 :=
  fun i => entry X A B W ⟨(i 0).val, (i 0).isLt⟩ ⟨(i 1).val, (i 1).isLt⟩

theorem scaledRows_apply (X : FVec Ideal S500000x128 .f32) (A : FVec Ideal S128x128 .f32) (B : FVec Ideal S128 .f32)
    (W : FVec Ideal S500000x1 .f32) (r : Fin 500000) (j : Fin 128) :
    scaledRows X A B W (ix2 r j) = (∑ k : Fin 128, X (ix2 r k) * A (ix2 k j) + B (ix1 j)) * W (ix2 r (0 : Fin 1)) := by
  show (Host.dotGeneral (F := Ideal) (DotDims.plain 500000 128 128) none X A (ix2 r j) + B (ix1 j)) * W (ix2 r (0 : Fin 1)) = _
  rw [StackMember.dotGeneral_plain_apply]

/-- The printed record of the block's product is the plain product of a 10000 × 128 by a 128 × 128 matrix. -/
theorem blockDot_plain : dot_S10000x128_S128x128_S10000x128_1_0_0_1_n_n = DotDims.plain 10000 128 128 := rfl

/-- One block's arithmetic at entry (p, q): the same expression of the block's rows and weights. -/
theorem block_entry (xb : Vec Ideal S10000x128 .f32) (a : Vec Ideal S128x128 .f32) (b : Vec Ideal S128 .f32)
    (wb : Vec Ideal S10000x1 .f32) (p : Fin 10000) (q : Fin 128) :
    k0_pay1 xb a b wb (ix2 p q) = (∑ k : Fin 128, xb (ix2 p k) * a (ix2 k q) + b (ix1 q)) * wb (ix2 p (0 : Fin 1)) := by
  unfold k0_pay1
  rw [shapeCast_self, shapeCast_self, shapeCast_self, blockDot_plain]
  show (matmul (F := Ideal) (DotDims.plain 10000 128 128) none xb a (constant S10000x128 .f32 0x00000000#32) (ix2 p q)
      + broadcastTo S10000x128 (shapeCast S1x128 b shapeCasts_S128_S1x128) broadcasts_S1x128_S10000x128 (ix2 p q))
      * broadcastTo S10000x128 wb broadcasts_S10000x1_S10000x128 (ix2 p q) = _
  rw [matmul_zero_eq_dotGeneral, StackMember.dotGeneral_plain_apply]
  have hb : broadcastTo S10000x128 (shapeCast S1x128 b shapeCasts_S128_S1x128) broadcasts_S1x128_S10000x128 (ix2 p q) = b (ix1 q) := by
    rw [broadcastTo_1b_ab_apply]
    exact shapeCast_a_1a_apply b shapeCasts_S128_S1x128 (0 : Fin 1) q
  have hw : broadcastTo S10000x128 wb broadcasts_S10000x1_S10000x128 (ix2 p q) = wb (ix2 p (0 : Fin 1)) :=
    broadcastTo_apply _ broadcasts_S10000x1_S10000x128 (ix2 p q) (ix2 p (0 : Fin 1)) (fun a => by
      match a with
      | ⟨0, _⟩ => show p.val = if (10000 : Nat) = 1 then 0 else p.val; rw [if_neg (by decide)]
      | ⟨1, _⟩ => show (0 : Nat) = if (1 : Nat) = 1 then 0 else q.val; rw [if_pos rfl])
  rw [hb, hw]

/-- Over the grid: the rows' block and the weights' block sit at the result block's rows 10000·t … 10000·t + 9999,
    the matrix and the bias are whole at every point, and t ranges over the fifty row blocks. -/
theorem block_rows : ∀ t : Fin cfg0.N, win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = win0_4.index t (0 : Fin 2) ∧ win0_3.index t (1 : Fin 2) = 0
    ∧ win0_4.index t (0 : Fin 2) ≤ 49 ∧ win0_4.index t (1 : Fin 2) = 0 :=
  (by decide +kernel : ∀ t : Fin grid0.N, _)

/-- Every row block is some grid point's. -/
theorem block_rows_onto : ∀ q0 : Fin 50, ∃ t : Fin cfg0.N, win0_4.index t = ![q0.val, 0] :=
  (by decide +kernel : ∀ q0 : Fin 50, ∃ t : Fin grid0.N, win0_4.index t = ![q0.val, 0])

/-- What grid point t writes back is block t of (x · A + b) · w of the four operands as the launch finds them. -/
theorem written_block (c : Dev nD) (t : Fin cfg0.N) :
    (dat0 V c).flushed 4 t = ((cfg0.win 4).blk t).view.read (Elt Ideal)
      (scaledRows (rowsArr V c) (matArr V c) (biasArr V c) (weightArr V c)) := by
  show (cfg0.win 4).cut (grid0.coords t) ((dat0 V c).after 4 t) = _
  rw [after0_4]
  unfold out0_4
  rw [View.canon_unit_zero origin2]
  simp only [View.ld_unit_zero (S := S10000x128) origin2, View.ld_unit_zero (S := S128x128) origin2,
    View.ld_unit_zero (S := S128) origin1, View.ld_unit_zero (S := S10000x1) origin2]
  obtain ⟨e0, e1, e2, e3, e4, e5, e6, e7, e8⟩ := block_rows t
  funext j
  obtain ⟨p, q, rfl⟩ : ∃ (p : Fin 10000) (q : Fin 128), j = ix2 p q := ⟨j 0, j 1, eq_ix2 j⟩
  have hr : win0_4.index t (0 : Fin 2) * 10000 + p.val < 500000 := by have := p.isLt; omega
  have hout : ((cfg0.win 4).blk t).view.emb (ix2 p q) = ix2 (⟨win0_4.index t (0 : Fin 2) * 10000 + p.val, hr⟩ : Fin 500000) q := by
    funext a; apply Fin.ext
    match a with
    | ⟨0, _⟩ => show win0_4.index t (0 : Fin 2) * 10000 + 1 * p.val = win0_4.index t (0 : Fin 2) * 10000 + p.val; omega
    | ⟨1, _⟩ => show win0_4.index t (1 : Fin 2) * 128 + 1 * q.val = q.val; omega
  show k0_pay1 (iblk0 V c 0 t) (iblk0 V c 1 t) (iblk0 V c 2 t) (iblk0 V c 3 t) (ix2 p q)
    = scaledRows (rowsArr V c) (matArr V c) (biasArr V c) (weightArr V c) (((cfg0.win 4).blk t).view.emb (ix2 p q))
  rw [hout, scaledRows_apply, block_entry (iblk0 V c 0 t) (iblk0 V c 1 t) (iblk0 V c 2 t) (iblk0 V c 3 t) p q]
  have hx : ∀ k : Fin 128, ((cfg0.win 0).blk t).view.emb (ix2 p k) = ix2 (⟨win0_4.index t (0 : Fin 2) * 10000 + p.val, hr⟩ : Fin 500000) k := fun k => by
    funext a; apply Fin.ext
    match a with
    | ⟨0, _⟩ => show win0_0.index t (0 : Fin 2) * 10000 + 1 * p.val = win0_4.index t (0 : Fin 2) * 10000 + p.val; omega
    | ⟨1, _⟩ => show win0_0.index t (1 : Fin 2) * 128 + 1 * k.val = k.val; omega
  have ha : ∀ k : Fin 128, ((cfg0.win 1).blk t).view.emb (ix2 k q) = ix2 k q := fun k => by
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  have hb : ((cfg0.win 2).blk t).view.emb (ix1 q) = ix1 q := by
    funext a; apply Fin.ext
    match a with
    | ⟨0, _⟩ => show win0_2.index t (0 : Fin 1) * 128 + 1 * q.val = q.val; omega
  have hw : ((cfg0.win 3).blk t).view.emb (ix2 p (0 : Fin 1)) = ix2 (⟨win0_4.index t (0 : Fin 2) * 10000 + p.val, hr⟩ : Fin 500000) (0 : Fin 1) := by
    funext a; apply Fin.ext
    match a with
    | ⟨0, _⟩ => show win0_3.index t (0 : Fin 2) * 10000 + 1 * p.val = win0_4.index t (0 : Fin 2) * 10000 + p.val; omega
    | ⟨1, _⟩ => show win0_3.index t (1 : Fin 2) * 1 + 1 * 0 = 0; omega
  show (∑ k : Fin 128, rowsArr V c (((cfg0.win 0).blk t).view.emb (ix2 p k)) * matArr V c (((cfg0.win 1).blk t).view.emb (ix2 k q))
      + biasArr V c (((cfg0.win 2).blk t).view.emb (ix1 q))) * weightArr V c (((cfg0.win 3).blk t).view.emb (ix2 p (0 : Fin 1))) = _
  rw [hb, hw]
  simp only [hx, ha]

/-- An entry of the array lies in grid point t's block iff its row and column lie in the block's ranges. -/
theorem mem_block (t : Fin cfg0.N) (i : S500000x128.Idx) :
    i ∈ ((cfg0.win 4).blk t).view.set ↔ ∀ a : Fin 2, win0_4.index t a * S10000x128.size a ≤ (i a).val ∧ (i a).val < win0_4.index t a * S10000x128.size a + S10000x128.size a := by
  show i ∈ ((View.whole main_v9).slice (win0_4.rect t)).set ↔ _
  rw [View.set_slice_whole, Rect.mem_set_unit]
  exact Iff.rfl

/-- The fifty row blocks cover the array: row r lies in block r / 10000. -/
theorem blocks_cover (i : S500000x128.Idx) :
    ∃ t : Fin cfg0.N, (cfg0.win 4).flush t = true ∧ i ∈ ((cfg0.win 4).blk t).view.set := by
  have hi0 : (i 0).val < 500000 := (i 0).isLt
  have hi1 : (i 1).val < 128 := (i 1).isLt
  obtain ⟨t, ht⟩ := block_rows_onto ⟨(i 0).val / 10000, by omega⟩
  have q0 : win0_4.index t (0 : Fin 2) = (i 0).val / 10000 := congrFun ht 0
  have q1 : win0_4.index t (1 : Fin 2) = 0 := congrFun ht 1
  refine ⟨t, flush0_4 t, ?_⟩
  rw [mem_block]
  intro a
  match a with
  | ⟨0, _⟩ => show win0_4.index t (0 : Fin 2) * 10000 ≤ (i 0).val ∧ (i 0).val < win0_4.index t (0 : Fin 2) * 10000 + 10000; omega
  | ⟨1, _⟩ => show win0_4.index t (1 : Fin 2) * 128 ≤ (i 1).val ∧ (i 1).val < win0_4.index t (1 : Fin 2) * 128 + 128; omega

/-- The array the first launch leaves: (x · A + b) · w of its four operands. -/
theorem result_array (c : Dev nD) :
    (dat0 V c).arrAt 4 cfg0.N = scaledRows (rowsArr V c) (matArr V c) (biasArr V c) (weightArr V c) :=
  (dat0 V c).arrAt_eq_of_cover 4 _ (fun t _ => written_block V c t) blocks_cover

end Cert.KernelIdeal.LinearScale

end
-- ==== Proof.AddRelu.lean ====
/-
  The second launch of the program: the sum of two 16000 × 128 arrays cut off below at zero, computed in eight
  blocks of 2000 rows. Block t of the result depends only on block t of each operand, entry by entry, and the eight
  blocks tile the array, so the array the launch leaves is x ↦ max (x + y, 0) of the two whole operands.
-/
import proofs.«128443_j36524401885446_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.AddRelu

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

/-- The two operands as the launch finds them, at their literal type. -/
abbrev tailSums (c : Dev nD) : S16000x128.Idx → Elt Ideal .f32 := V c main_v12
abbrev headSums (c : Dev nD) : S16000x128.Idx → Elt Ideal .f32 := V c main_v15

theorem origin2 : (![0, 0] : Fin 2 → Nat) = fun _ => 0 := funext fun a => by fin_cases a <;> rfl

/-- Entry by entry: the sum of the two operands, or zero where the sum is negative. -/
def reluSum (x y : S16000x128.Idx → Elt Ideal .f32) : S16000x128.Idx → Elt Ideal .f32 :=
  maximumf (addf x y) (broadcast S16000x128 (Scalar.ofBits (F := Ideal) .f32 0x00000000#32))

/-- One block's arithmetic at one entry: the shape casts are of a shape to itself. -/
theorem block_entry (xb yb : Vec Ideal S2000x128 .f32) (j : S2000x128.Idx) :
    k1_pay1 xb yb j = max (xb j + yb j) (Scalar.ofBits (F := Ideal) .f32 0x00000000#32) := by
  unfold k1_pay1
  rw [shapeCast_self, shapeCast_self]
  rfl

/-- Over the grid: both operands' blocks sit where the result's block sits, in rows 2000·t … 2000·t + 1999 and all
    128 columns, t ranging over the eight row blocks. -/
theorem block_rows : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_2.index t (0 : Fin 2) ≤ 7 ∧ win1_2.index t (1 : Fin 2) = 0 :=
  (by decide +kernel : ∀ t : Fin grid1.N, _)

/-- Every row block is some grid point's. -/
theorem block_rows_onto : ∀ q0 : Fin 8, ∃ t : Fin cfg1.N, win1_2.index t = ![q0.val, 0] :=
  (by decide +kernel : ∀ q0 : Fin 8, ∃ t : Fin grid1.N, win1_2.index t = ![q0.val, 0])

/-- What grid point t writes back is block t of the whole-array function of the two operands as the launch finds them. -/
theorem written_block (c : Dev nD) (t : Fin cfg1.N) :
    (dat1 V c).flushed 2 t = ((cfg1.win 2).blk t).view.read (Elt Ideal) (reluSum (tailSums V c) (headSums V c)) := by
  show (cfg1.win 2).cut (grid1.coords t) ((dat1 V c).after 2 t) = _
  rw [after1_2]
  unfold out1_2
  rw [View.canon_unit_zero origin2]
  simp only [View.ld_unit_zero (S := S2000x128) origin2]
  obtain ⟨e0, e1, e2, e3, e4, e5⟩ := block_rows t
  funext j
  show k1_pay1 (iblk1 V c 0 t) (iblk1 V c 1 t) j = reluSum (tailSums V c) (headSums V c) (((cfg1.win 2).blk t).view.emb j)
  rw [block_entry (iblk1 V c 0 t) (iblk1 V c 1 t) j]
  have h0 : ((cfg1.win 0).blk t).view.emb j = ((cfg1.win 2).blk t).view.emb j := by
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb j = ((cfg1.win 2).blk t).view.emb j := by
    funext a; apply Fin.ext
    match a with
    | ⟨0, _⟩ => show win1_1.index t (0 : Fin 2) * 2000 + 1 * (j 0).val = win1_2.index t (0 : Fin 2) * 2000 + 1 * (j 0).val; omega
    | ⟨1, _⟩ => show win1_1.index t (1 : Fin 2) * 128 + 1 * (j 1).val = win1_2.index t (1 : Fin 2) * 128 + 1 * (j 1).val; omega
  show max (tailSums V c (((cfg1.win 0).blk t).view.emb j) + headSums V c (((cfg1.win 1).blk t).view.emb j)) _ = _
  rw [h0, h1]
  rfl

/-- An entry of the array lies in grid point t's block iff its row and column lie in the block's ranges. -/
theorem mem_block (t : Fin cfg1.N) (i : S16000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v16).slice (win1_2.rect t)).set ↔ _
  rw [View.set_slice_whole, Rect.mem_set_unit]
  exact Iff.rfl

/-- The eight row blocks cover the array: row r lies in block r / 2000. -/
theorem blocks_cover (i : S16000x128.Idx) :
    ∃ t : Fin cfg1.N, (cfg1.win 2).flush t = true ∧ i ∈ ((cfg1.win 2).blk t).view.set := by
  have hi0 : (i 0).val < 16000 := (i 0).isLt
  have hi1 : (i 1).val < 128 := (i 1).isLt
  obtain ⟨t, ht⟩ := block_rows_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- The array the second launch leaves: the sum of its two operands, cut off below at zero. -/
theorem result_array (c : Dev nD) :
    (dat1 V c).arrAt 2 cfg1.N = reluSum (tailSums V c) (headSums V c) :=
  (dat1 V c).arrAt_eq_of_cover 2 _ (fun t _ => written_block V c t) blocks_cover

end Cert.KernelIdeal.AddRelu

end
-- ==== Proof.ProgramValue.lean ====
/-
  The value of the whole program at the ideal values. Between the two launches the host scatters the first launch's
  rows (x · A + b) · w into 16000 segment sums, once by the facts' tails and once by their heads; the second launch
  adds the two and cuts the sum off below at zero; a last reshape lays the 16000 rows out as 8 × 2000. The rows x are
  read from a table by the relation indices, A is the transposed matrix and w the weights as a column, all host
  operations before the first launch. Reading the buffers back through the run's boundaries gives the result buffer
  as one function of the argument arrays.
-/
import proofs.«128443_j36524401885446_1_alg».proof.Proof.LinearScale
import proofs.«128443_j36524401885446_1_alg».proof.Proof.AddRelu
import Idealize.ShloMosaic.Lib.StableHlo.Run

set_option maxRecDepth 16384

noncomputable section

namespace Cert.KernelIdeal.ProgramValue

open Idealize.ShloMosaic Idealize.ShloMosaic.TcCoe Idealize.SL.Sem Idealize.ShloMosaic.StableHlo
open Cert.KernelIdeal Cert.KernelIdeal.Gen

/-- Row f of the table row the relation index of fact f names (a negative index counted from the table's end, as the
    host's gather is handed it). -/
def selectedRows (rels : IVec S500000 32) (table : FVec Ideal S6000x128 .f32) : FVec Ideal S500000x128 .f32 :=
  Host.gather gather_S6000x128_S500000x1_S500000x128_1_0_n_n_0_1_1128 table
    (broadcastInDim S500000x1 ![0] bcast_S500000_S500000x1_0
      (select (cmpi .slt rels (broadcastInDim S500000 ![] bcast_S_S500000 (constantI S_ 32 0#32)))
        (addi rels (broadcastInDim S500000 ![] bcast_S_S500000 (constantI S_ 32 6000#32))) rels))

/-- The rows (x · A + b) · w with x the selected table rows, A the transposed matrix, w the weights as a column. -/
def weightedRows (rels : IVec S500000 32) (w : FVec Ideal S500000 .f32) (table : FVec Ideal S6000x128 .f32)
    (W : FVec Ideal S128x128 .f32) (b : FVec Ideal S128 .f32) : FVec Ideal S500000x128 .f32 :=
  LinearScale.scaledRows (selectedRows rels table) (transpose S128x128 [1, 0] W transposes_S128x128_S128x128_1_0) b
    (shapeCast S500000x1 w shapeCasts_S500000_S500000x1)

/-- The rows summed into 16000 segments by a segment index per row, from zero. -/
def segmentSums (seg : IVec S500000 32) (u : FVec Ideal S500000x128 .f32) : FVec Ideal S16000x128 .f32 :=
  Host.scatterAdd scatter_S16000x128_S500000x1_S500000x128_1_0_0_1
    (broadcastInDim S16000x128 ![] bcast_S_S16000x128 (constant S_ .f32 0x00000000#32))
    (broadcastInDim S500000x1 ![0] bcast_S500000_S500000x1_0 seg) u

/-- The program's result as a function of its arguments. -/
def result (heads rels tails : IVec S500000 32) (w : FVec Ideal S500000 .f32) (table : FVec Ideal S6000x128 .f32)
    (W : FVec Ideal S128x128 .f32) (b : FVec Ideal S128 .f32) : FVec Ideal S8x2000x128 .f32 :=
  shapeCast S8x2000x128
    (AddRelu.reluSum (segmentSums tails (weightedRows rels w table W b)) (segmentSums heads (weightedRows rels w table W b)))
    shapeCasts_S16000x128_S8x2000x128

variable (m : (ℓ : Loc nD τ sig) → Buf (Elt Ideal) ℓ) (ρ : Dev nD → PrngReg)

/-! ## What the first launch is entered with -/

theorem entry_rows (c : Dev nD) :
    LinearScale.rowsArr (V1 m ρ) c = selectedRows (m ((c : Thread nD τ).loc main_arg2)) (m ((c : Thread nD τ).loc main_arg5)) := by
  show StableHlo.after hostOps0 (W0 m ρ c) (Proc.devRef .tc main_v6) = _
  after_results
  rfl

theorem entry_matrix (c : Dev nD) :
    LinearScale.matArr (V1 m ρ) c = transpose S128x128 [1, 0] (m ((c : Thread nD τ).loc main_arg6)) transposes_S128x128_S128x128_1_0 := by
  show StableHlo.after hostOps0 (W0 m ρ c) (Proc.devRef .tc main_v7) = _
  after_results

theorem entry_bias (c : Dev nD) : LinearScale.biasArr (V1 m ρ) c = m ((c : Thread nD τ).loc main_arg7) := by
  show StableHlo.after hostOps0 (W0 m ρ c) (Proc.devRef .tc main_arg7) = _
  after_results

theorem entry_weights (c : Dev nD) :
    LinearScale.weightArr (V1 m ρ) c = shapeCast S500000x1 (m ((c : Thread nD τ).loc main_arg4)) shapeCasts_S500000_S500000x1 := by
  show StableHlo.after hostOps0 (W0 m ρ c) (Proc.devRef .tc main_v8) = _
  after_results
  rfl

/-! ## After the first launch -/

theorem after_first (c : Dev nD) :
    W2 m ρ c (Proc.devRef .tc main_v9)
      = weightedRows (m ((c : Thread nD τ).loc main_arg2)) (m ((c : Thread nD τ).loc main_arg4)) (m ((c : Thread nD τ).loc main_arg5))
          (m ((c : Thread nD τ).loc main_arg6)) (m ((c : Thread nD τ).loc main_arg7)) := by
  refine (W2_arr m ρ c 4).trans ((LinearScale.result_array (V1 m ρ) c).trans ?_)
  rw [entry_rows, entry_matrix, entry_bias, entry_weights]
  rfl

/-- A segment-index argument is untouched by the first launch and the host operations before it. -/
theorem tails_kept (c : Dev nD) : W2 m ρ c (Proc.devRef .tc main_arg3) = m ((c : Thread nD τ).loc main_arg3) := by
  refine (W2_of_ne m ρ c main_arg3 (by decide)).trans ?_
  show StableHlo.after hostOps0 (W0 m ρ c) (Proc.devRef .tc main_arg3) = _
  after_results

theorem heads_kept (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  after_results

/-! ## What the second launch is entered with -/

theorem entry_tailSums (c : Dev nD) :
    AddRelu.tailSums (V3 m ρ) c = segmentSums (m ((c : Thread nD τ).loc main_arg3)) (W2 m ρ c (Proc.devRef .tc main_v9)) := by
  show StableHlo.after hostOps1 (W2 m ρ c) (Proc.devRef .tc main_v12) = _
  after_results
  rw [tails_kept]
  rfl

theorem entry_headSums (c : Dev nD) :
    AddRelu.headSums (V3 m ρ) c = segmentSums (m ((c : Thread nD τ).loc main_arg1)) (W2 m ρ c (Proc.devRef .tc main_v9)) := by
  show StableHlo.after hostOps1 (W2 m ρ c) (Proc.devRef .tc main_v15) = _
  after_results
  rw [heads_kept]
  rfl

/-! ## The result buffer -/

theorem result_buffer (c : Dev nD) :
    W5 m ρ c (Proc.devRef .tc main_v17)
      = result (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) := by
  show StableHlo.after hostOps2 (W4 m ρ c) (Proc.devRef .tc main_v17) = _
  after_results
  rw [show W4 m ρ c (Proc.devRef .tc main_v16) = AddRelu.reluSum (AddRelu.tailSums (V3 m ρ) c) (AddRelu.headSums (V3 m ρ) c) from
    (W4_arr m ρ c 2).trans (AddRelu.result_array (V3 m ρ) c)]
  rw [entry_tailSums, entry_headSums, after_first]
  rfl

end Cert.KernelIdeal.ProgramValue

end
-- ==== Proof.ReferenceValue.lean ====
/-
  The reference computes the same function of the arguments. Its rows are the host's product of the selected table
  rows by the transposed matrix, plus the bias laid along every row, times the weights laid along every column:
  entry (r, j) is (∑ₖ x(r, k) · A(k, j) + b(j)) · w(r), which is the entry the kernel's first launch leaves. The
  segment sums, their sum cut off at zero and the last reshape are the same operations on both sides.
-/
import proofs.«128443_j36524401885446_1_alg».proof.Proof.ProgramValue
import proofs.«128443_j36524401885446_1_alg».proof.Proof.Gen.ReferenceIdeal.Run
import proofs.«128443_j36524401885446_1_alg».proof.Proof.Gen.ReferenceIdeal.Read
import Idealize.ShloMosaic.Lib.KernelVsHost

set_option maxRecDepth 16384

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Read

/-- A vector of length a reshaped to a column [a, 1] reads, at (i, u), the vector at i. -/
theorem shapeCast_column_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The reference's rows are the kernel's: entry by entry the same sum of products, bias and weight. -/
theorem weighted_rows (x2 : IVec S500000 32) (x4 : FVec Ideal S500000 .f32) (x5 : FVec Ideal S6000x128 .f32)
    (x6 : FVec Ideal S128x128 .f32) (x7 : FVec Ideal S128 .f32) :
    val_main_v14 (F := Ideal) x2 x4 x5 x6 x7 = Cert.KernelIdeal.ProgramValue.weightedRows x2 x4 x5 x6 x7 := by
  funext i
  obtain ⟨r, j, rfl⟩ : ∃ (r : Fin 500000) (j : Fin 128), i = ix2 r j := ⟨i 0, i 1, eq_ix2 i⟩
  rw [val_main_v14_apply, val_main_v11_apply, val_main_v8_apply, val_main_v10_apply, val_main_v9_apply, val_main_v13_apply,
    val_main_v12_apply]
  unfold Cert.KernelIdeal.ProgramValue.weightedRows
  rw [Cert.KernelIdeal.LinearScale.scaledRows_apply, shapeCast_column_apply]
  have hl : ∀ k : Fin 128, lidx_main_v8 (ix2 r j) k = ix2 r k := fun k => funext fun a => by
    match a with
    | ⟨0, _⟩ => rfl
    | ⟨1, _⟩ => rfl
  have hr : ∀ k : Fin 128, ridx_main_v8 (ix2 r j) k = ix2 k j := fun k => funext fun a => by
    match a with
    | ⟨0, _⟩ => rfl
    | ⟨1, _⟩ => rfl
  have hb : idx_main_v9 (idx_main_v10 (ix2 r j)) = ix1 j := funext fun a => by
    match a with
    | ⟨0, _⟩ => rfl
  have hw : idx_main_v12 (idx_main_v13 (ix2 r j)) = ix1 r := funext fun a => by
    match a with
    | ⟨0, _⟩ => rfl
  simp only [hl, hr, hb, hw]
  rfl

/-- The reference's result, stage by stage, is the kernel's function of the arguments. -/
theorem result_eq (x1 x2 x3 : IVec S500000 32) (x4 : FVec Ideal S500000 .f32) (x5 : FVec Ideal S6000x128 .f32)
    (x6 : FVec Ideal S128x128 .f32) (x7 : FVec Ideal S128 .f32) :
    val_main_v23 (F := Ideal) x1 x2 x3 x4 x5 x6 x7 = Cert.KernelIdeal.ProgramValue.result x1 x2 x3 x4 x5 x6 x7 := by
  unfold val_main_v23 val_main_v22 val_main_v21 val_main_v17 val_main_v20
  rw [weighted_rows]
  unfold Cert.KernelIdeal.ProgramValue.result Cert.KernelIdeal.AddRelu.reluSum Cert.KernelIdeal.ProgramValue.segmentSums
  rw [show val_main_call0_v0 (F := Ideal) = broadcast S16000x128 (Scalar.ofBits (F := Ideal) .f32 0x00000000#32) from
    broadcastInDim_constant _ _ _]
  rfl

end Cert.ReferenceIdeal.RefValue

end
-- ==== Proof.lean ====
/-
  The certificate of a two-launch program against its one-pass reference, at the ideal values.
  Both compute relu (S_tails(Y) + S_heads(Y)) laid out as 8 × 2000 × 128, where Y = (X · Wᵀ + b) · w row by row,
  X the table rows the relation indices select, and S_i the sum of the rows of Y into 16000 segments by the index
  vector i. The kernel computes Y in fifty blocks of 10000 rows (a product of matrices is computed row by row, so a
  block of rows of the product is the product of that block of rows) and the final sum and cut-off in eight blocks of
  2000 rows; the reference computes each in one piece. No law of arithmetic is used beyond that: entry by entry the
  two sides are the same expression, so the inputs' finiteness is never opened.
  The three frames are the generated ones (the reference's is its generated run with the result dropped); nothing was
  rewritten by the idealization, so there is nothing to preserve.
-/
import proofs.«128443_j36524401885446_1_alg».proof.Defs
import proofs.«128443_j36524401885446_1_alg».proof.Proof.Gen.Kernel
import proofs.«128443_j36524401885446_1_alg».proof.Proof.Gen.Kernel.Skeleton
import proofs.«128443_j36524401885446_1_alg».proof.Proof.Gen.Kernel.Launch
import proofs.«128443_j36524401885446_1_alg».proof.Proof.Gen.Kernel.Points
import proofs.«128443_j36524401885446_1_alg».proof.Proof.Gen.Kernel.Frame
import proofs.«128443_j36524401885446_1_alg».proof.Proof.Gen.KernelIdeal
import proofs.«128443_j36524401885446_1_alg».proof.Proof.Gen.KernelIdeal.Skeleton
import proofs.«128443_j36524401885446_1_alg».proof.Proof.Gen.KernelIdeal.Launch
import proofs.«128443_j36524401885446_1_alg».proof.Proof.Gen.KernelIdeal.Points
import proofs.«128443_j36524401885446_1_alg».proof.Proof.Gen.KernelIdeal.Frame
import proofs.«128443_j36524401885446_1_alg».proof.Proof.Gen.ReferenceIdeal
import proofs.«128443_j36524401885446_1_alg».proof.Proof.Gen.Pre_finite_inputs
import proofs.«128443_j36524401885446_1_alg».proof.Proof.Gen.ReferenceIdeal.Run
import proofs.«128443_j36524401885446_1_alg».proof.Proof.Gen.ReferenceIdeal.Read
import proofs.«128443_j36524401885446_1_alg».proof.Proof.ResultRun
import proofs.«128443_j36524401885446_1_alg».proof.Proof.ProgramValue
import proofs.«128443_j36524401885446_1_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result buffer at the same function of the arguments they agree on. -/
theorem algebraic : Cert.algebraic_KernelIdeal_ReferenceIdeal := by
  intro m ρ m' ρ' _ hagree
  refine ⟨fun c => Cert.KernelIdeal.ProgramValue.result
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.ProgramValue.result_buffer m ρ c), (h c).2⟩)
      (Cert.KernelIdeal.ResultRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨_, h1, h2, h3, h4, h5, h6, h7⟩ := hagree c
    rw [Cert.ReferenceIdeal.Read.val_main_v23_eq, Cert.ReferenceIdeal.RefValue.result_eq, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
